-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x3 .f32) (main_arg1 : FVec F S4000000x4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x3 : Shape := ⟨2, ![4000000, 3]⟩
abbrev S4000000x4 : Shape := ⟨2, ![4000000, 4]⟩
abbrev S4000000x9 : Shape := ⟨2, ![4000000, 9]⟩
abbrev S4000000x3x3 : Shape := ⟨3, ![4000000, 3, 3]⟩
abbrev S2000x3 : Shape := ⟨2, ![2000, 3]⟩
abbrev S2000x4 : Shape := ⟨2, ![2000, 4]⟩
abbrev S2000x9 : Shape := ⟨2, ![2000, 9]⟩
abbrev S2000x1 : Shape := ⟨2, ![2000, 1]⟩

abbrev nBuf : Space → Nat
  | .hbm => 4
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x9, .f32⟩
  | .hbm, ⟨3, _⟩ => ⟨S4000000x3x3, .f32⟩
  | .local _ .vmem, ⟨0, _⟩ => ⟨S2000x3, .f32⟩
  | .local _ .vmem, ⟨1, _⟩ => ⟨S2000x3, .f32⟩
  | .local _ .vmem, ⟨2, _⟩ => ⟨S2000x4, .f32⟩
  | .local _ .vmem, ⟨3, _⟩ => ⟨S2000x4, .f32⟩
  | .local _ .vmem, ⟨4, _⟩ => ⟨S2000x9, .f32⟩
  | .local _ .vmem, ⟨5, _⟩ => ⟨S2000x9, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4000000x9_S4000000x3x3 : S4000000x9.ShapeCasts S4000000x3x3
  inb_S2000x3_S2000x1_0_0 : ∀ a, (![0, 0] : Fin 2 → Nat) a + S2000x1.size a ≤ S2000x3.size a
  h_S2000x1 : 0 < S2000x1.numel
  inb_S2000x3_S2000x1_0_1 : ∀ a, (![0, 1] : Fin 2 → Nat) a + S2000x1.size a ≤ S2000x3.size a
  inb_S2000x3_S2000x1_0_2 : ∀ a, (![0, 2] : Fin 2 → Nat) a + S2000x1.size a ≤ S2000x3.size a
  inb_S2000x4_S2000x1_0_0 : ∀ a, (![0, 0] : Fin 2 → Nat) a + S2000x1.size a ≤ S2000x4.size a
  inb_S2000x4_S2000x1_0_1 : ∀ a, (![0, 1] : Fin 2 → Nat) a + S2000x1.size a ≤ S2000x4.size a
  inb_S2000x4_S2000x1_0_2 : ∀ a, (![0, 2] : Fin 2 → Nat) a + S2000x1.size a ≤ S2000x4.size a
  inb_S2000x4_S2000x1_0_3 : ∀ a, (![0, 3] : Fin 2 → Nat) a + S2000x1.size a ≤ S2000x4.size a
  concatenates_S2000x1_S2000x1_S2000x1_S2000x1_S2000x1_S2000x1_S2000x1_S2000x1_S2000x1_S2000x9_d1 : Shape.Concatenates [S2000x1, S2000x1, S2000x1, S2000x1, S2000x1, S2000x1, S2000x1, S2000x1, S2000x1] S2000x9 1
  inb_S2000x9_S2000x9_0_0 : ∀ a, (![0, 0] : Fin 2 → Nat) a + S2000x9.size a ≤ S2000x9.size a
  h_S2000x9 : 0 < S2000x9.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S4000000x3.size a
  hwx0_0 : ∀ i : grid0.Coords, EltTy.bits .f32 = 32 ∨ (Rect.block (s := S4000000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x4.size a ≤ S4000000x4.size a
  hwx0_1 : ∀ i : grid0.Coords, EltTy.bits .f32 = 32 ∨ (Rect.block (s := S4000000x4) S2000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x9.size a ≤ S4000000x9.size a
  hwx0_2 : ∀ i : grid0.Coords, EltTy.bits .f32 = 32 ∨ (Rect.block (s := S4000000x9) S2000x9.size (cc0_transform_2 i) (hinb0_2 i)).WholeWords (EltTy.packing .f32)

variable [Facts₀]

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 99
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x3, .f32⟩
  | .hbm, ⟨3, _⟩ => ⟨S4000000x4, .f32⟩
  | .hbm, ⟨4, _⟩ => ⟨S_, .f32⟩
  | .hbm, ⟨5, _⟩ => ⟨S4000000, .f32⟩
  | .hbm, ⟨6, _⟩ => ⟨S4000000x1, .f32⟩
  | .hbm, ⟨7, _⟩ => ⟨S4000000x1, .f32⟩
  | .hbm, ⟨8, _⟩ => ⟨S_, .f32⟩
  | .hbm, ⟨9, _⟩ => ⟨S4000000x1, .f32⟩
  | .hbm, ⟨10, _⟩ => ⟨S4000000x1, .f32⟩
  | .hbm, ⟨11, _⟩ => ⟨S4000000x4, .f32⟩
  | .hbm, ⟨12, _⟩ => ⟨S4000000x4, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000x1, .f32⟩
  | .hbm, ⟨18, _⟩ => ⟨S4000000, .f32⟩
  | .hbm, ⟨19, _⟩ => ⟨S4000000x1, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S4000000, .f32⟩
  | .hbm, ⟨24, _⟩ => ⟨S_, .f32⟩
  | .hbm, ⟨25, _⟩ => ⟨S4000000, .f32⟩
  | .hbm, ⟨26, _⟩ => ⟨S4000000, .f32⟩
  | .hbm, ⟨27, _⟩ => ⟨S_, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S_, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S_, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S_, .f32⟩
  | .hbm, ⟨46, _⟩ => ⟨S4000000, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S_, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S_, .f32⟩
  | .hbm, ⟨67, _⟩ => ⟨S4000000, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S_, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S_, .f32⟩
  | .hbm, ⟨79, _⟩ => ⟨S4000000, .f32⟩
  | .hbm, ⟨80, _⟩ => ⟨S4000000, .f32⟩
  | .hbm, ⟨81, _⟩ => ⟨S_, .f32⟩
  | .hbm, ⟨82, _⟩ => ⟨S4000000, .f32⟩
  | .hbm, ⟨83, _⟩ => ⟨S4000000, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x1, .f32⟩
  | .hbm, ⟨92, _⟩ => ⟨S4000000x1, .f32⟩
  | .hbm, ⟨93, _⟩ => ⟨S4000000x9, .f32⟩
  | .hbm, ⟨94, _⟩ => ⟨S4000000x3x3, .f32⟩
  | .hbm, ⟨95, _⟩ => ⟨S4000000x1x3, .f32⟩
  | .hbm, ⟨96, _⟩ => ⟨S4000000x3x3, .f32⟩
  | .hbm, ⟨97, _⟩ => ⟨S4000000x3x3, .f32⟩
  | .hbm, ⟨98, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Covariance.lean ====
/-
  The covariance of a scaled, rotated Gaussian, one row at a time, on the extended reals.

  A row holds three log-scales `s` and a quaternion `q = (r, i, j, k)`. The quaternion is divided by its
  length clamped from below, `max (√(r² + i² + j² + k²)) ε`; the unit quaternion `u` gives the rotation matrix
  `R`; its columns are scaled by `eˢ`, `M a j = R a j · e^(s j)`; and the covariance is `M Mᵀ`,
  `cov a b = Σ_j M a j · M b j`, a symmetric 3 × 3 matrix. Everything is stated with the operations of the
  extended reals exactly as both programs spell them, so that each program's result is this function by
  unfolding; the one law used is the symmetry `cov a b = cov b a`, which is the commutativity of the product.
-/
import Idealize.ShloMosaic.PureOps.Ideal
import Idealize.ShloMosaic.Lib.ValueIdx

noncomputable section

namespace Cert.Covariance

open Idealize.ShloMosaic Idealize.ShloMosaic.ValueIdx

/-- The lower clamp of the quaternion's length (the float nearest 1e-12). -/
abbrev eps : EReal := Ideal.ofBits .f32 0x2B8CBCCC#32
/-- The float 2. -/
abbrev two : EReal := Ideal.ofBits .f32 0x40000000#32
/-- The float 1. -/
abbrev one : EReal := Ideal.ofBits .f32 0x3F800000#32

/-- The quaternion's Euclidean length, clamped from below by `eps`. -/
def len (q : Fin 4 → EReal) : EReal :=
  max (Ideal.sqrt (q 0 * q 0 + q 1 * q 1 + q 2 * q 2 + q 3 * q 3)) eps

/-- The quaternion divided by its clamped length. -/
def unit (q : Fin 4 → EReal) (k : Fin 4) : EReal := Ideal.div (q k) (len q)

/-- The rotation matrix of a quaternion `u = (r, i, j, k)`, entry by entry. -/
def rot (u : Fin 4 → EReal) (a b : Fin 3) : EReal :=
  match a, b with
  | ⟨0, _⟩, ⟨0, _⟩ => one - two * (u 2 * u 2 + u 3 * u 3)
  | ⟨0, _⟩, ⟨1, _⟩ => two * (u 1 * u 2 - u 3 * u 0)
  | ⟨0, _⟩, ⟨2, _⟩ => two * (u 1 * u 3 + u 2 * u 0)
  | ⟨1, _⟩, ⟨0, _⟩ => two * (u 1 * u 2 + u 3 * u 0)
  | ⟨1, _⟩, ⟨1, _⟩ => one - two * (u 1 * u 1 + u 3 * u 3)
  | ⟨1, _⟩, ⟨2, _⟩ => two * (u 2 * u 3 - u 1 * u 0)
  | ⟨2, _⟩, ⟨0, _⟩ => two * (u 1 * u 3 - u 2 * u 0)
  | ⟨2, _⟩, ⟨1, _⟩ => two * (u 2 * u 3 + u 1 * u 0)
  | ⟨2, _⟩, ⟨2, _⟩ => one - two * (u 1 * u 1 + u 2 * u 2)

/-- The rotation with column `j` scaled by `e^(s j)`. -/
def scaled (s : Fin 3 → EReal) (q : Fin 4 → EReal) (a j : Fin 3) : EReal :=
  rot (unit q) a j * Ideal.exp (s j)

/-- Entry `(a, b)` of `M Mᵀ`, the sum over the three columns written out. -/
def cov (s : Fin 3 → EReal) (q : Fin 4 → EReal) (a b : Fin 3) : EReal :=
  scaled s q a 0 * scaled s q b 0 + scaled s q a 1 * scaled s q b 1 + scaled s q a 2 * scaled s q b 2

/-- `M Mᵀ` is symmetric: each product of two entries commutes. -/
theorem cov_comm (s : Fin 3 → EReal) (q : Fin 4 → EReal) (a b : Fin 3) : cov s q a b = cov s q b a := by
  unfold cov
  rw [mul_comm (scaled s q a 0), mul_comm (scaled s q a 1), mul_comm (scaled s q a 2)]

/-- Row `n` of the log-scale array. -/
abbrev srow (x0 : (⟨2, ![4000000, 3]⟩ : Shape).Idx → EReal) (n : Fin 4000000) : Fin 3 → EReal := fun j => x0 (ix2 n j)
/-- Row `n` of the quaternion array. -/
abbrev qrow (x1 : (⟨2, ![4000000, 4]⟩ : Shape).Idx → EReal) (n : Fin 4000000) : Fin 4 → EReal := fun k => x1 (ix2 n k)

/-- The covariances of all rows as an array `[4000000, 3, 3]`. -/
def G (x0 : (⟨2, ![4000000, 3]⟩ : Shape).Idx → EReal) (x1 : (⟨2, ![4000000, 4]⟩ : Shape).Idx → EReal) :
    (⟨3, ![4000000, 3, 3]⟩ : Shape).Idx → EReal :=
  fun i => cov (srow x0 (i 0)) (qrow x1 (i 0)) (i 1) (i 2)

/-- The same laid out flat, `[4000000, 9]`, column `3 a + b` holding entry `(a, b)`. -/
def Gflat (x0 : (⟨2, ![4000000, 3]⟩ : Shape).Idx → EReal) (x1 : (⟨2, ![4000000, 4]⟩ : Shape).Idx → EReal) :
    (⟨2, ![4000000, 9]⟩ : Shape).Idx → EReal :=
  fun i => cov (srow x0 (i 0)) (qrow x1 (i 0))
    ⟨(i 1).val / 3, by have h : (i 1).val < 9 := (i 1).isLt; show (i 1).val / 3 < 3; omega⟩
    ⟨(i 1).val % 3, Nat.mod_lt _ (by decide)⟩

end Cert.Covariance

end
-- ==== Proof.KernelBlock.lean ====
/-
  One block of the kernel, at the extended reals.

  The body loads the three columns of a block of log-scales and the four columns of a block of quaternions, each a
  column vector of 2000 rows, computes nine column vectors from them row by row, and joins the nine along the
  lanes into the block [2000, 9] it stores. Read at row `p` and lane `c`, the stored block is therefore column
  `c` at row `p`, and that column is entry `(c / 3, c % 3)` of the row's covariance `M Mᵀ`: for the entries on and
  above the diagonal by unfolding both sides, for those below it through the symmetry of `M Mᵀ` (the kernel stores
  the upper entry in both places).
-/
import proofs.«100101_j57191784513783_1_alg».proof.Proof.Gen.KernelIdeal.Frame
import proofs.«100101_j57191784513783_1_alg».proof.Proof.Covariance
import Idealize.ShloMosaic.Lib.Pipeline.Value
import Idealize.ShloMosaic.Lib.ValueIdx

set_option maxRecDepth 16384

noncomputable section

namespace Cert.KernelIdeal.Cov

open Cert.KernelIdeal Cert.KernelIdeal.Gen Idealize.ShloMosaic Idealize.ShloMosaic.TcCoe Idealize.ShloMosaic.ValueIdx Cert.Covariance

/-- The store's offsets are zero on both axes. -/
theorem hz : (![0, 0] : Fin 2 → Nat) = fun _ => 0 := funext fun a => by fin_cases a <;> rfl

/-! ## The seven loads: column `j` of a block, read at row `p` -/

theorem ld_s0 (p : Fin 2000) : r0_0.idx (ix2 p (0 : Fin 1)) = ix2 p (0 : Fin 3) := by
  funext a; apply Fin.ext
  match a with
  | ⟨0, _⟩ => show (0 : Nat) + 1 * p.val = p.val; omega
  | ⟨1, _⟩ => rfl
theorem ld_s1 (p : Fin 2000) : r0_1.idx (ix2 p (0 : Fin 1)) = ix2 p (1 : Fin 3) := by
  funext a; apply Fin.ext
  match a with
  | ⟨0, _⟩ => show (0 : Nat) + 1 * p.val = p.val; omega
  | ⟨1, _⟩ => rfl
theorem ld_s2 (p : Fin 2000) : r0_2.idx (ix2 p (0 : Fin 1)) = ix2 p (2 : Fin 3) := by
  funext a; apply Fin.ext
  match a with
  | ⟨0, _⟩ => show (0 : Nat) + 1 * p.val = p.val; omega
  | ⟨1, _⟩ => rfl
theorem ld_q0 (p : Fin 2000) : r0_3.idx (ix2 p (0 : Fin 1)) = ix2 p (0 : Fin 4) := by
  funext a; apply Fin.ext
  match a with
  | ⟨0, _⟩ => show (0 : Nat) + 1 * p.val = p.val; omega
  | ⟨1, _⟩ => rfl
theorem ld_q1 (p : Fin 2000) : r0_4.idx (ix2 p (0 : Fin 1)) = ix2 p (1 : Fin 4) := by
  funext a; apply Fin.ext
  match a with
  | ⟨0, _⟩ => show (0 : Nat) + 1 * p.val = p.val; omega
  | ⟨1, _⟩ => rfl
theorem ld_q2 (p : Fin 2000) : r0_5.idx (ix2 p (0 : Fin 1)) = ix2 p (2 : Fin 4) := by
  funext a; apply Fin.ext
  match a with
  | ⟨0, _⟩ => show (0 : Nat) + 1 * p.val = p.val; omega
  | ⟨1, _⟩ => rfl
theorem ld_q3 (p : Fin 2000) : r0_6.idx (ix2 p (0 : Fin 1)) = ix2 p (3 : Fin 4) := by
  funext a; apply Fin.ext
  match a with
  | ⟨0, _⟩ => show (0 : Nat) + 1 * p.val = p.val; omega
  | ⟨1, _⟩ => rfl

/-! ## Nine columns joined along the lanes -/

/-- Nine column vectors joined along the lanes, read at row `p` and lane `c`: column `c` at row `p`. -/
theorem concat9_at (e0 e1 e2 e3 e4 e5 e6 e7 e8 : S2000x1.Idx → EReal)
    (h : Shape.Concatenates [S2000x1, S2000x1, S2000x1, S2000x1, S2000x1, S2000x1, S2000x1, S2000x1, S2000x1] S2000x9 1)
    (p : Fin 2000) (c : Fin 9) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p c)
      = (![e0, e1, e2, e3, e4, e5, e6, e7, e8] c) (ix2 p 0) :=
  concatenate_ofFn_unit_apply (t := S2000x9) (s₁ := S2000x1) 1 ![e0, e1, e2, e3, e4, e5, e6, e7, e8] h rfl rfl (ix2 p c) c rfl (ix2 p 0)
    (fun b hb => by
      match b with
      | ⟨0, _⟩ => rfl
      | ⟨1, _⟩ => exact absurd rfl hb)

/-- The same, lane by lane. -/
theorem concat9_0 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (0 : Fin 9))
      = e0 (ix2 p 0) :=
  concat9_at e0 e1 e2 e3 e4 e5 e6 e7 e8 h p 0
theorem concat9_1 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (1 : Fin 9))
      = e1 (ix2 p 0) :=
  concat9_at e0 e1 e2 e3 e4 e5 e6 e7 e8 h p 1
theorem concat9_2 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (2 : Fin 9))
      = e2 (ix2 p 0) :=
  concat9_at e0 e1 e2 e3 e4 e5 e6 e7 e8 h p 2
theorem concat9_3 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (3 : Fin 9))
      = e3 (ix2 p 0) :=
  concat9_at e0 e1 e2 e3 e4 e5 e6 e7 e8 h p 3
theorem concat9_4 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (4 : Fin 9))
      = e4 (ix2 p 0) :=
  concat9_at e0 e1 e2 e3 e4 e5 e6 e7 e8 h p 4
theorem concat9_5 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (5 : Fin 9))
      = e5 (ix2 p 0) :=
  concat9_at e0 e1 e2 e3 e4 e5 e6 e7 e8 h p 5
theorem concat9_6 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (6 : Fin 9))
      = e6 (ix2 p 0) :=
  concat9_at e0 e1 e2 e3 e4 e5 e6 e7 e8 h p 6
theorem concat9_7 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (7 : Fin 9))
      = e7 (ix2 p 0) :=
  concat9_at e0 e1 e2 e3 e4 e5 e6 e7 e8 h p 7
theorem concat9_8 (e0 e1 e2 e3 e4 e5 e6 e7 e8 : S2000x1.Idx → EReal)
    (h : Shape.Concatenates [S2000x1, S2000x1, S2000x1, S2000x1, S2000x1, S2000x1, S2000x1, S2000x1, S2000x1] S2000x9 1) (p : Fin 2000) :
    concatenate S2000x9 1 [⟨S2000x1, e0⟩, ⟨S2000x1, e1⟩, ⟨S2000x1, e2⟩, ⟨S2000x1, e3⟩, ⟨S2000x1, e4⟩, ⟨S2000x1, e5⟩, ⟨S2000x1, e6⟩, ⟨S2000x1, e7⟩, ⟨S2000x1, e8⟩] h (ix2 p (8 : Fin 9))
      = e8 (ix2 p 0) :=
  concat9_at e0 e1 e2 e3 e4 e5 e6 e7 e8 h p 8

/-! ## The block -/

/-- A row's three log-scales, from the three loaded columns at that row. -/
abbrev sAt (v0 v2 v4 : Vec Ideal S2000x1 .f32) (i : S2000x1.Idx) : Fin 3 → EReal := ![v0 i, v2 i, v4 i]
/-- A row's quaternion, from the four loaded columns at that row. -/
abbrev qAt (v6 v7 v8 v9 : Vec Ideal S2000x1 .f32) (i : S2000x1.Idx) : Fin 4 → EReal := ![v6 i, v7 i, v8 i, v9 i]

section Pieces
variable (v0 v2 v4 v6 v7 v8 v9 : Vec Ideal S2000x1 .f32) (i : S2000x1.Idx)

/-- Entry (0, 0): the kernel's column is the covariance's entry, by unfolding both. -/
theorem piece00 :
    (k0_pay23 (F := Ideal) (k0_pay2 v0) (k0_pay3 v2) (k0_pay4 v4) (k0_pay10 v6 v7 v8 v9) (k0_pay11 v6 v7 v8 v9) (k0_pay12 v6 v7 v8 v9) k0_pay13) i
      = cov (sAt v0 v2 v4 i) (qAt v6 v7 v8 v9 i) 0 0 := rfl

/-- Entry (0, 1): the kernel's column is the covariance's entry, by unfolding both. -/
theorem piece01 :
    (addf (k0_pay24 (F := Ideal) (k0_pay2 v0) (k0_pay3 v2) (k0_pay6 v6 v7 v8 v9) (k0_pay7 v6 v7 v8 v9) (k0_pay8 v6 v7 v8 v9) (k0_pay9 v6 v7 v8 v9) (k0_pay10 v6 v7 v8 v9) (k0_pay11 v6 v7 v8 v9)) (mulf (k0_pay16 (k0_pay4 v4) (k0_pay12 v6 v7 v8 v9) k0_pay13) (k0_pay19 (k0_pay4 v4) (k0_pay6 v6 v7 v8 v9) (k0_pay7 v6 v7 v8 v9) (k0_pay8 v6 v7 v8 v9) (k0_pay9 v6 v7 v8 v9)))) i
      = cov (sAt v0 v2 v4 i) (qAt v6 v7 v8 v9 i) 0 1 := rfl

/-- Entry (0, 2): the kernel's column is the covariance's entry, by unfolding both. -/
theorem piece02 :
    (addf (addf (mulf (F := Ideal) (k0_pay14 (k0_pay2 v0) (k0_pay10 v6 v7 v8 v9)) (k0_pay20 (k0_pay2 v0) (k0_pay6 v6 v7 v8 v9) (k0_pay7 v6 v7 v8 v9) (k0_pay8 v6 v7 v8 v9) (k0_pay9 v6 v7 v8 v9))) (mulf (k0_pay15 (k0_pay3 v2) (k0_pay11 v6 v7 v8 v9)) (k0_pay21 (k0_pay3 v2) (k0_pay6 v6 v7 v8 v9) (k0_pay7 v6 v7 v8 v9) (k0_pay8 v6 v7 v8 v9) (k0_pay9 v6 v7 v8 v9)))) (mulf (k0_pay16 (k0_pay4 v4) (k0_pay12 v6 v7 v8 v9) k0_pay13) (k0_pay22 (k0_pay4 v4) (k0_pay7 v6 v7 v8 v9) (k0_pay8 v6 v7 v8 v9)))) i
      = cov (sAt v0 v2 v4 i) (qAt v6 v7 v8 v9 i) 0 2 := rfl

/-- Entry (1, 1): the kernel's column is the covariance's entry, by unfolding both. -/
theorem piece11 :
    (addf (addf (mulf (F := Ideal) (k0_pay17 (k0_pay2 v0) (k0_pay6 v6 v7 v8 v9) (k0_pay7 v6 v7 v8 v9) (k0_pay8 v6 v7 v8 v9) (k0_pay9 v6 v7 v8 v9)) (k0_pay17 (k0_pay2 v0) (k0_pay6 v6 v7 v8 v9) (k0_pay7 v6 v7 v8 v9) (k0_pay8 v6 v7 v8 v9) (k0_pay9 v6 v7 v8 v9))) (mulf (k0_pay18 (k0_pay3 v2) (k0_pay7 v6 v7 v8 v9) (k0_pay9 v6 v7 v8 v9)) (k0_pay18 (k0_pay3 v2) (k0_pay7 v6 v7 v8 v9) (k0_pay9 v6 v7 v8 v9)))) (mulf (k0_pay19 (k0_pay4 v4) (k0_pay6 v6 v7 v8 v9) (k0_pay7 v6 v7 v8 v9) (k0_pay8 v6 v7 v8 v9) (k0_pay9 v6 v7 v8 v9)) (k0_pay19 (k0_pay4 v4) (k0_pay6 v6 v7 v8 v9) (k0_pay7 v6 v7 v8 v9) (k0_pay8 v6 v7 v8 v9) (k0_pay9 v6 v7 v8 v9)))) i
      = cov (sAt v0 v2 v4 i) (qAt v6 v7 v8 v9 i) 1 1 := rfl

/-- Entry (1, 2): the kernel's column is the covariance's entry, by unfolding both. -/
theorem piece12 :
    (addf (addf (mulf (F := Ideal) (k0_pay17 (k0_pay2 v0) (k0_pay6 v6 v7 v8 v9) (k0_pay7 v6 v7 v8 v9) (k0_pay8 v6 v7 v8 v9) (k0_pay9 v6 v7 v8 v9)) (k0_pay20 (k0_pay2 v0) (k0_pay6 v6 v7 v8 v9) (k0_pay7 v6 v7 v8 v9) (k0_pay8 v6 v7 v8 v9) (k0_pay9 v6 v7 v8 v9))) (mulf (k0_pay18 (k0_pay3 v2) (k0_pay7 v6 v7 v8 v9) (k0_pay9 v6 v7 v8 v9)) (k0_pay21 (k0_pay3 v2) (k0_pay6 v6 v7 v8 v9) (k0_pay7 v6 v7 v8 v9) (k0_pay8 v6 v7 v8 v9) (k0_pay9 v6 v7 v8 v9)))) (mulf (k0_pay19 (k0_pay4 v4) (k0_pay6 v6 v7 v8 v9) (k0_pay7 v6 v7 v8 v9) (k0_pay8 v6 v7 v8 v9) (k0_pay9 v6 v7 v8 v9)) (k0_pay22 (k0_pay4 v4) (k0_pay7 v6 v7 v8 v9) (k0_pay8 v6 v7 v8 v9)))) i
      = cov (sAt v0 v2 v4 i) (qAt v6 v7 v8 v9 i) 1 2 := rfl

/-- Entry (2, 2): the kernel's column is the covariance's entry, by unfolding both. -/
theorem piece22 :
    (addf (addf (mulf (F := Ideal) (k0_pay20 (k0_pay2 v0) (k0_pay6 v6 v7 v8 v9) (k0_pay7 v6 v7 v8 v9) (k0_pay8 v6 v7 v8 v9) (k0_pay9 v6 v7 v8 v9)) (k0_pay20 (k0_pay2 v0) (k0_pay6 v6 v7 v8 v9) (k0_pay7 v6 v7 v8 v9) (k0_pay8 v6 v7 v8 v9) (k0_pay9 v6 v7 v8 v9))) (mulf (k0_pay21 (k0_pay3 v2) (k0_pay6 v6 v7 v8 v9) (k0_pay7 v6 v7 v8 v9) (k0_pay8 v6 v7 v8 v9) (k0_pay9 v6 v7 v8 v9)) (k0_pay21 (k0_pay3 v2) (k0_pay6 v6 v7 v8 v9) (k0_pay7 v6 v7 v8 v9) (k0_pay8 v6 v7 v8 v9) (k0_pay9 v6 v7 v8 v9)))) (mulf (k0_pay22 (k0_pay4 v4) (k0_pay7 v6 v7 v8 v9) (k0_pay8 v6 v7 v8 v9)) (k0_pay22 (k0_pay4 v4) (k0_pay7 v6 v7 v8 v9) (k0_pay8 v6 v7 v8 v9)))) i
      = cov (sAt v0 v2 v4 i) (qAt v6 v7 v8 v9 i) 2 2 := rfl

end Pieces

/-- The block the body stores, at row `p` and lane `c = 3 a + b`, is entry `(a, b)` of the covariance of row `p` of the
    two input blocks. -/
theorem block_at (x0 : Vec Ideal S2000x3 .f32) (x1 : Vec Ideal S2000x4 .f32) (p : Fin 2000) (c : Fin 9) (a b : Fin 3)
    (hc : c.val = 3 * a.val + b.val) :
    out0_2 (F := Ideal) x0 x1 (ix2 p c) = cov (fun j : Fin 3 => x0 (ix2 p j)) (fun k : Fin 4 => x1 (ix2 p k)) a b := by
  have hs : (fun j : Fin 3 => x0 (ix2 p j)) = sAt (View.ld x0 r0_0) (View.ld x0 r0_1) (View.ld x0 r0_2) (ix2 p 0) := by
    funext j
    match j with
    | ⟨0, _⟩ => exact (congrArg x0 (ld_s0 p)).symm
    | ⟨1, _⟩ => exact (congrArg x0 (ld_s1 p)).symm
    | ⟨2, _⟩ => exact (congrArg x0 (ld_s2 p)).symm
  have hq : (fun k : Fin 4 => x1 (ix2 p k)) = qAt (View.ld x1 r0_3) (View.ld x1 r0_4) (View.ld x1 r0_5) (View.ld x1 r0_6) (ix2 p 0) := by
    funext k
    match k with
    | ⟨0, _⟩ => exact (congrArg x1 (ld_q0 p)).symm
    | ⟨1, _⟩ => exact (congrArg x1 (ld_q1 p)).symm
    | ⟨2, _⟩ => exact (congrArg x1 (ld_q2 p)).symm
    | ⟨3, _⟩ => exact (congrArg x1 (ld_q3 p)).symm
  rw [hs, hq]
  unfold out0_2
  rw [View.canon_unit_zero hz]
  unfold k0_pay1
  match a, b with
  | ⟨0, _⟩, ⟨0, _⟩ =>
    obtain rfl : c = (0 : Fin 9) := Fin.ext hc
    rw [concat9_0]
    exact (piece00 (View.ld x0 r0_0) (View.ld x0 r0_1) (View.ld x0 r0_2) (View.ld x1 r0_3) (View.ld x1 r0_4) (View.ld x1 r0_5) (View.ld x1 r0_6) (ix2 p 0))
  | ⟨0, _⟩, ⟨1, _⟩ =>
    obtain rfl : c = (1 : Fin 9) := Fin.ext hc
    rw [concat9_1]
    exact (piece01 (View.ld x0 r0_0) (View.ld x0 r0_1) (View.ld x0 r0_2) (View.ld x1 r0_3) (View.ld x1 r0_4) (View.ld x1 r0_5) (View.ld x1 r0_6) (ix2 p 0))
  | ⟨0, _⟩, ⟨2, _⟩ =>
    obtain rfl : c = (2 : Fin 9) := Fin.ext hc
    rw [concat9_2]
    exact (piece02 (View.ld x0 r0_0) (View.ld x0 r0_1) (View.ld x0 r0_2) (View.ld x1 r0_3) (View.ld x1 r0_4) (View.ld x1 r0_5) (View.ld x1 r0_6) (ix2 p 0))
  | ⟨1, _⟩, ⟨0, _⟩ =>
    obtain rfl : c = (3 : Fin 9) := Fin.ext hc
    rw [concat9_3]
    exact (piece01 (View.ld x0 r0_0) (View.ld x0 r0_1) (View.ld x0 r0_2) (View.ld x1 r0_3) (View.ld x1 r0_4) (View.ld x1 r0_5) (View.ld x1 r0_6) (ix2 p 0)).trans (cov_comm _ _ 0 1)
  | ⟨1, _⟩, ⟨1, _⟩ =>
    obtain rfl : c = (4 : Fin 9) := Fin.ext hc
    rw [concat9_4]
    exact (piece11 (View.ld x0 r0_0) (View.ld x0 r0_1) (View.ld x0 r0_2) (View.ld x1 r0_3) (View.ld x1 r0_4) (View.ld x1 r0_5) (View.ld x1 r0_6) (ix2 p 0))
  | ⟨1, _⟩, ⟨2, _⟩ =>
    obtain rfl : c = (5 : Fin 9) := Fin.ext hc
    rw [concat9_5]
    exact (piece12 (View.ld x0 r0_0) (View.ld x0 r0_1) (View.ld x0 r0_2) (View.ld x1 r0_3) (View.ld x1 r0_4) (View.ld x1 r0_5) (View.ld x1 r0_6) (ix2 p 0))
  | ⟨2, _⟩, ⟨0, _⟩ =>
    obtain rfl : c = (6 : Fin 9) := Fin.ext hc
    rw [concat9_6]
    exact (piece02 (View.ld x0 r0_0) (View.ld x0 r0_1) (View.ld x0 r0_2) (View.ld x1 r0_3) (View.ld x1 r0_4) (View.ld x1 r0_5) (View.ld x1 r0_6) (ix2 p 0)).trans (cov_comm _ _ 0 2)
  | ⟨2, _⟩, ⟨1, _⟩ =>
    obtain rfl : c = (7 : Fin 9) := Fin.ext hc
    rw [concat9_7]
    exact (piece12 (View.ld x0 r0_0) (View.ld x0 r0_1) (View.ld x0 r0_2) (View.ld x1 r0_3) (View.ld x1 r0_4) (View.ld x1 r0_5) (View.ld x1 r0_6) (ix2 p 0)).trans (cov_comm _ _ 1 2)
  | ⟨2, _⟩, ⟨2, _⟩ =>
    obtain rfl : c = (8 : Fin 9) := Fin.ext hc
    rw [concat9_8]
    exact (piece22 (View.ld x0 r0_0) (View.ld x0 r0_1) (View.ld x0 r0_2) (View.ld x1 r0_3) (View.ld x1 r0_4) (View.ld x1 r0_5) (View.ld x1 r0_6) (ix2 p 0))

end Cert.KernelIdeal.Cov

end
-- ==== Proof.KernelValue.lean ====
/-
  From the blocks to the arrays: what the kernel's program leaves in its result, at the extended reals.

  The region runs the body at 2000 points; point `t` reads rows `2000 t … 2000 t + 1999` of both argument arrays and
  writes back, as block `t` of a flat array [4000000, 9], the covariance entries of those rows (the block lemma). The
  blocks tile the flat array, so after the region it holds, at row `r` and lane `c`, entry `(c / 3, c % 3)` of row `r`'s
  covariance. The one host operation after the region reshapes the flat array to [4000000, 3, 3]; in row-major
  order index `(r, a, b)` is lane `3 a + b` of row `r`, so the result holds entry `(a, b)` of row `r`'s covariance.
-/
import proofs.«100101_j57191784513783_1_alg».proof.Proof.KernelBlock
import Idealize.ShloMosaic.Lib.Pipeline.Value
import Idealize.ShloMosaic.Lib.ValueIdx
import Idealize.ShloMosaic.Lib.StableHlo.Run

set_option maxRecDepth 16384

noncomputable section

namespace Cert.KernelIdeal.Cov

open Cert.KernelIdeal Cert.KernelIdeal.Gen Idealize.ShloMosaic Idealize.ShloMosaic.TcCoe Idealize.ShloMosaic.ValueIdx Cert.Covariance
open Idealize.SL Idealize.SL.Sem

variable (m : (ℓ : Loc nD τ sig) → Buf (Elt Ideal) ℓ) (ρ : Dev nD → PrngReg)

/-- The argument arrays as the run finds them. -/
abbrev scaleArr (c : Dev nD) : S4000000x3.Idx → EReal := m ((c : Thread nD τ).loc main_arg0)
abbrev quatArr (c : Dev nD) : S4000000x4.Idx → EReal := m ((c : Thread nD τ).loc main_arg1)

/-- The three index maps, decided over the grid: point `t` takes block `t` of the rows and the one block of the lanes. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Point `t`'s block of log-scales is rows `2000 t … 2000 t + 1999` of the array. -/
theorem iblk0_apply (c : Dev nD) (t : Fin cfg0.N) (p : Fin 2000) (j : Fin 3) (r : Fin 4000000) (hr : r.val = 2000 * t.val + p.val) :
    (iblk m c 0 t : Vec Ideal S2000x3 .f32) (ix2 p j) = scaleArr m c (ix2 r j) := by
  obtain ⟨e0, e1, -⟩ := idx_facts t
  unfold iblk
  rw [View.read_apply]
  show scaleArr m c _ = scaleArr m c _
  congr 1
  funext a
  apply Fin.ext
  match a with
  | ⟨0, _⟩ => show win0_0.index t 0 * 2000 + 1 * p.val = r.val; rw [e0, hr]; omega
  | ⟨1, _⟩ => show win0_0.index t 1 * 3 + 1 * j.val = j.val; rw [e1]; omega

/-- Point `t`'s block of quaternions is the same rows of the quaternion array. -/
theorem iblk1_apply (c : Dev nD) (t : Fin cfg0.N) (p : Fin 2000) (k : Fin 4) (r : Fin 4000000) (hr : r.val = 2000 * t.val + p.val) :
    (iblk m c 1 t : Vec Ideal S2000x4 .f32) (ix2 p k) = quatArr m c (ix2 r k) := by
  obtain ⟨-, -, e0, e1, -⟩ := idx_facts t
  unfold iblk
  rw [View.read_apply]
  show quatArr m c _ = quatArr m c _
  congr 1
  funext a
  apply Fin.ext
  match a with
  | ⟨0, _⟩ => show win0_1.index t 0 * 2000 + 1 * p.val = r.val; rw [e0, hr]; omega
  | ⟨1, _⟩ => show win0_1.index t 1 * 4 + 1 * k.val = k.val; rw [e1]; omega

/-- What point `t` leaves in the output's staging buffer, at an index `y` of the block, is the flat covariance array at
    the index `y` lands on: row `2000 t + y₀`, lane `y₁`. -/
theorem out_at (c : Dev nD) (t : Fin cfg0.N) (y : S2000x9.Idx) (i : S4000000x9.Idx)
    (h0 : (i 0).val = 2000 * t.val + (y 0).val) (h1 : (i 1).val = (y 1).val) :
    out0_2 (F := Ideal) (iblk m c 0 t) (iblk m c 1 t) y = Gflat (scaleArr m c) (quatArr m c) i := by
  obtain ⟨p, cc, rfl⟩ : ∃ (p : Fin 2000) (cc : Fin 9), y = ix2 p cc := ⟨y 0, y 1, eq_ix2 y⟩
  have hcc : (i 1).val = cc.val := h1
  have hi1 : (i 1).val < 9 := (i 1).isLt
  have hs : (fun j : Fin 3 => (iblk m c 0 t : Vec Ideal S2000x3 .f32) (ix2 p j)) = srow (scaleArr m c) (i 0) :=
    funext fun j => iblk0_apply m c t p j (i 0) h0
  have hq : (fun k : Fin 4 => (iblk m c 1 t : Vec Ideal S2000x4 .f32) (ix2 p k)) = qrow (quatArr m c) (i 0) :=
    funext fun k => iblk1_apply m c t p k (i 0) h0
  refine (block_at (iblk m c 0 t) (iblk m c 1 t) p cc ⟨(i 1).val / 3, by omega⟩ ⟨(i 1).val % 3, Nat.mod_lt _ (by decide)⟩
    (by show cc.val = 3 * ((i 1).val / 3) + (i 1).val % 3; omega)).trans ?_
  rw [hs, hq]
  rfl

/-- Point `t` writes back block `t` of the flat covariance array. -/
theorem flushed_eq (c : Dev nD) (t : Fin cfg0.N) :
    (dats m 0 c).flushed 2 t = ((cfg0.win 2).blk t).view.read (Elt Ideal) (Gflat (scaleArr m c) (quatArr m c)) := by
  show (cfg0.win 2).cut (grid0.coords t) ((dats m 0 c).after 2 t) = _
  rw [after0_2]
  obtain ⟨-, -, -, -, e0, e1⟩ := idx_facts t
  funext y
  rw [View.read_apply]
  refine out_at m c t y _ ?_ ?_
  · show win0_2.index t 0 * 2000 + 1 * (y 0).val = 2000 * t.val + (y 0).val; rw [e0]; omega
  · show win0_2.index t 1 * 9 + 1 * (y 1).val = (y 1).val; rw [e1]; omega

/-- An index of the flat array is in point `t`'s block iff each coordinate is in the block's range on its axis. -/
theorem mem_blk (t : Fin cfg0.N) (i : S4000000x9.Idx) :
    i ∈ ((cfg0.win 2).blk t).view.set ↔ ∀ a : Fin 2, win0_2.index t a * S2000x9.size a ≤ (i a).val ∧ (i a).val < win0_2.index t a * S2000x9.size a + S2000x9.size a := by
  show i ∈ ((View.whole main_call0_v0).slice (win0_2.rect t)).set ↔ _
  rw [View.set_slice_whole, Rect.mem_set_unit]
  exact Iff.rfl

/-- The flat array after the region: the blocks tile it (row `r` is in the block of point `r / 2000`), so it holds the
    flat covariance array. -/
theorem final (c : Dev nD) : (dats m 0 c).arrAt 2 cfg0.N = Gflat (scaleArr m c) (quatArr m c) :=
  (dats m 0 c).arrAt_eq_of_cover 2 _ (fun t _ => flushed_eq m c t) (fun i => by
    have hi0 : (i 0).val < 4000000 := (i 0).isLt
    have hi1 : (i 1).val < 9 := (i 1).isLt
    have hN : cfg0.N = 2000 := N_0
    obtain ⟨t, ht⟩ : ∃ t : Fin cfg0.N, t.val = (i 0).val / 2000 := ⟨⟨(i 0).val / 2000, by rw [hN]; omega⟩, rfl⟩
    obtain ⟨-, -, -, -, e0, e1⟩ := idx_facts t
    refine ⟨t, flush0_2 t, ?_⟩
    rw [mem_blk]
    intro a
    match a with
    | ⟨0, _⟩ => show win0_2.index t 0 * 2000 ≤ (i 0).val ∧ (i 0).val < win0_2.index t 0 * 2000 + 2000; rw [e0, ht]; omega
    | ⟨1, _⟩ => show win0_2.index t 1 * 9 ≤ (i 1).val ∧ (i 1).val < win0_2.index t 1 * 9 + 9; rw [e1]; omega)

/-! ## The reshape after the region -/

/-- Lane `3 a + b` of the flat array is entry `(a, b)`. -/
theorem Gflat_at (x0 : S4000000x3.Idx → EReal) (x1 : S4000000x4.Idx → EReal) (n : Fin 4000000) (a b : Fin 3) (c : Fin 9)
    (hc : c.val = 3 * a.val + b.val) : Gflat x0 x1 (ix2 n c) = cov (srow x0 n) (qrow x1 n) a b := by
  have ha3 : a.val < 3 := a.isLt
  have hb3 : b.val < 3 := b.isLt
  have ha : c.val / 3 = a.val := by omega
  have hb : c.val % 3 = b.val := by omega
  show cov (srow x0 n) (qrow x1 n) ⟨c.val / 3, _⟩ ⟨c.val % 3, _⟩ = _
  congr 1
  · exact Fin.ext ha
  · exact Fin.ext hb

/-- The result is the reshape of the flat array the region left: the rows' covariances. -/
theorem tail_eq (c : Dev nD) :
    Pipeline.afterTail₀ cfgs (dats m) 0 (V0 m) [hostOps1] c main_v0 = G (scaleArr m c) (quatArr m c) := by
  unfold Pipeline.afterTail₀
  show StableHlo.after hostOps1 _ (Proc.devRef .tc main_v0) = _
  after_results
  funext i
  show shapeCast _ (Pipeline.withArrays (cfgs 0).spec c (V0 m c) (fun w => (dats m 0 c).arrAt w (cfgs 0).N)
    (Proc.devRef .tc main_call0_v0)) _ i = _
  rw [show Pipeline.withArrays (cfgs 0).spec c (V0 m c) (fun w => (dats m 0 c).arrAt w (cfgs 0).N)
      (Proc.devRef .tc main_call0_v0) = Gflat (scaleArr m c) (quatArr m c) from
    (Pipeline.withArrays_arr spec0 launch0.win.arr_inj c _ _ 2).trans (final m c)]
  have h1 : (i 1).val < 3 := (i 1).isLt
  have h2 : (i 2).val < 3 := (i 2).isLt
  refine (shapeCast_apply _ _ i (ix2 (i 0) (⟨3 * (i 1).val + (i 2).val, by omega⟩ : Fin 9)) ?_).trans ?_
  · show (S4000000x9.rowMajor (ix2 (i 0) (⟨3 * (i 1).val + (i 2).val, by omega⟩ : Fin 9))).val = (S4000000x3x3.rowMajor i).val
    rw [Shape.rowMajor_val_two, Shape.rowMajor_val_three]
    show (i 0).val * 9 + (3 * (i 1).val + (i 2).val) = ((i 0).val * 3 + (i 1).val) * 3 + (i 2).val
    omega
  · exact Gflat_at _ _ (i 0) (i 1) (i 2) _ rfl

/-! ## The run, read -/

/-- Every weakly fair execution of the idealized kernel's program ends with its result holding the rows' covariances and
    its arguments unchanged. -/
theorem run : θ_run defs (onTc (τ := τ) (main (F := Ideal))) ⟨m, fun _ => 0, ρ⟩ fun r => ∀ c : Dev nD,
      r.2.mem ((c : Thread nD τ).loc main_v0) = G (scaleArr m c) (quatArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (Pipeline.mem_restRefs_of main_v0 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Cov

end
-- ==== Proof.RefRotation.lean ====
/-
  The reference's rotation matrix, one row at a time, at the extended reals.

  The reference squares the quaternion array, sums each row from zero, takes the root, clamps it from below and
  divides the array by it: row `n` becomes the unit quaternion of the row. It then slices the four components out
  as flat vectors and forms the nine entries of the rotation matrix from them, each a flat vector over the rows.
  Read at row `n`, each of these is the corresponding term of the specification; the only step that is not an
  unfolding is that a sum from zero is the sum.
-/
import proofs.«100101_j57191784513783_1_alg».proof.Proof.Gen.ReferenceIdeal.Read
import proofs.«100101_j57191784513783_1_alg».proof.Proof.Covariance
import Idealize.ShloMosaic.Lib.ValueIdx

set_option maxRecDepth 16384

noncomputable section

namespace Cert.ReferenceIdeal.Cov

open Cert.ReferenceIdeal Cert.ReferenceIdeal.Gen Cert.ReferenceIdeal.Read Idealize.ShloMosaic Idealize.ShloMosaic.TcCoe
  Idealize.ShloMosaic.ValueIdx Cert.Covariance

variable (x1 : (⟨S4000000x4, .f32⟩ : BufTy).Contents (Elt Ideal)) (n : Fin 4000000)

/-! ## The unit quaternion of a row -/

/-- The row's squares summed from zero: the sum of the four squares. -/
theorem sumsq_at : val_main_call0_v1 (F := Ideal) x1 (ix1 n)
    = qrow x1 n 0 * qrow x1 n 0 + qrow x1 n 1 * qrow x1 n 1 + qrow x1 n 2 * qrow x1 n 2 + qrow x1 n 3 * qrow x1 n 3 := by
  rw [val_main_call0_v1_apply, Fin.sum_univ_four]
  have e : ∀ k : Fin 4, idx_main_call0_v1 (ix1 n) k = ix2 n k := fun k => funext fun a => by
    match a with
    | ⟨0, _⟩ => rfl
    | ⟨1, _⟩ => rfl
  rw [e 0, e 1, e 2, e 3]
  show Ideal.ofBits .f32 0x00000000#32 + _ = _
  rw [Ideal.ofBits_zero_f32, zero_add]
  rfl

/-- The clamped length of row `n`. -/
theorem len_at : val_main_v3 (F := Ideal) x1 (ix2 n (0 : Fin 1)) = len (qrow x1 n) := by
  rw [val_main_v3_apply, val_main_v2_apply, val_main_v1_apply, val_main_call0_v2_apply]
  have e : idx_main_call0_v2 (ix2 n (0 : Fin 1)) = ix1 n := funext fun a => by
    match a with
    | ⟨0, _⟩ => rfl
  rw [e, sumsq_at]
  rfl

/-- Row `n` divided by its clamped length. -/
theorem unit_at (k : Fin 4) : val_main_v5 (F := Ideal) x1 (ix2 n k) = unit (qrow x1 n) k := by
  rw [val_main_v5_apply, val_main_v4_apply]
  have e : idx_main_v4 (ix2 n k) = ix2 n (0 : Fin 1) := funext fun a => by
    match a with
    | ⟨0, _⟩ => rfl
    | ⟨1, _⟩ => rfl
  rw [e, len_at]
  rfl

/-- Component 0 of the unit quaternion, sliced out and flattened. -/
theorem u0_at : val_main_v7 (F := Ideal) x1 (ix1 n) = unit (qrow x1 n) 0 := by
  rw [val_main_v7_apply, val_main_v6_apply]
  have e : idx_main_v6 (idx_main_v7 (ix1 n)) = ix2 n (0 : Fin 4) := funext fun a => Fin.ext (by
    match a with
    | ⟨0, _⟩ => show n.val / 1 = n.val; omega
    | ⟨1, _⟩ => rfl)
  rw [e, unit_at]

/-- Component 1 of the unit quaternion, sliced out and flattened. -/
theorem u1_at : val_main_v9 (F := Ideal) x1 (ix1 n) = unit (qrow x1 n) 1 := by
  rw [val_main_v9_apply, val_main_v8_apply]
  have e : idx_main_v8 (idx_main_v9 (ix1 n)) = ix2 n (1 : Fin 4) := funext fun a => Fin.ext (by
    match a with
    | ⟨0, _⟩ => show n.val / 1 = n.val; omega
    | ⟨1, _⟩ => rfl)
  rw [e, unit_at]

/-- Component 2 of the unit quaternion, sliced out and flattened. -/
theorem u2_at : val_main_v11 (F := Ideal) x1 (ix1 n) = unit (qrow x1 n) 2 := by
  rw [val_main_v11_apply, val_main_v10_apply]
  have e : idx_main_v10 (idx_main_v11 (ix1 n)) = ix2 n (2 : Fin 4) := funext fun a => Fin.ext (by
    match a with
    | ⟨0, _⟩ => show n.val / 1 = n.val; omega
    | ⟨1, _⟩ => rfl)
  rw [e, unit_at]

/-- Component 3 of the unit quaternion, sliced out and flattened. -/
theorem u3_at : val_main_v13 (F := Ideal) x1 (ix1 n) = unit (qrow x1 n) 3 := by
  rw [val_main_v13_apply, val_main_v12_apply]
  have e : idx_main_v12 (idx_main_v13 (ix1 n)) = ix2 n (3 : Fin 4) := funext fun a => Fin.ext (by
    match a with
    | ⟨0, _⟩ => show n.val / 1 = n.val; omega
    | ⟨1, _⟩ => rfl)
  rw [e, unit_at]

/-! ## The constants 1 and 2 spread over the rows -/

theorem c17_at (i : S4000000.Idx) : val_main_v17 (F := Ideal) i = two := by rw [val_main_v17_apply]; rfl
theorem c19_at (i : S4000000.Idx) : val_main_v19 (F := Ideal) i = one := by rw [val_main_v19_apply]; rfl
theorem c24_at (i : S4000000.Idx) : val_main_v24 (F := Ideal) i = two := by rw [val_main_v24_apply]; rfl
theorem c29_at (i : S4000000.Idx) : val_main_v29 (F := Ideal) i = two := by rw [val_main_v29_apply]; rfl
theorem c34_at (i : S4000000.Idx) : val_main_v34 (F := Ideal) i = two := by rw [val_main_v34_apply]; rfl
theorem c39_at (i : S4000000.Idx) : val_main_v39 (F := Ideal) i = two := by rw [val_main_v39_apply]; rfl
theorem c41_at (i : S4000000.Idx) : val_main_v41 (F := Ideal) i = one := by rw [val_main_v41_apply]; rfl
theorem c46_at (i : S4000000.Idx) : val_main_v46 (F := Ideal) i = two := by rw [val_main_v46_apply]; rfl
theorem c51_at (i : S4000000.Idx) : val_main_v51 (F := Ideal) i = two := by rw [val_main_v51_apply]; rfl
theorem c56_at (i : S4000000.Idx) : val_main_v56 (F := Ideal) i = two := by rw [val_main_v56_apply]; rfl
theorem c61_at (i : S4000000.Idx) : val_main_v61 (F := Ideal) i = two := by rw [val_main_v61_apply]; rfl
theorem c63_at (i : S4000000.Idx) : val_main_v63 (F := Ideal) i = one := by rw [val_main_v63_apply]; rfl

/-! ## The nine entries of the rotation matrix, each a flat vector over the rows -/

theorem r00_at : val_main_v20 (F := Ideal) x1 (ix1 n) = rot (unit (qrow x1 n)) 0 0 := by
  rw [val_main_v20_apply, val_main_v18_apply, val_main_v16_apply, val_main_v14_apply, val_main_v15_apply, c19_at, c17_at, u2_at, u3_at]
  rfl

theorem r01_at : val_main_v25 (F := Ideal) x1 (ix1 n) = rot (unit (qrow x1 n)) 0 1 := by
  rw [val_main_v25_apply, val_main_v23_apply, val_main_v21_apply, val_main_v22_apply, c24_at, u1_at, u2_at, u3_at, u0_at]
  rfl

theorem r02_at : val_main_v30 (F := Ideal) x1 (ix1 n) = rot (unit (qrow x1 n)) 0 2 := by
  rw [val_main_v30_apply, val_main_v28_apply, val_main_v26_apply, val_main_v27_apply, c29_at, u1_at, u3_at, u2_at, u0_at]
  rfl

theorem r10_at : val_main_v35 (F := Ideal) x1 (ix1 n) = rot (unit (qrow x1 n)) 1 0 := by
  rw [val_main_v35_apply, val_main_v33_apply, val_main_v31_apply, val_main_v32_apply, c34_at, u1_at, u2_at, u3_at, u0_at]
  rfl

theorem r11_at : val_main_v42 (F := Ideal) x1 (ix1 n) = rot (unit (qrow x1 n)) 1 1 := by
  rw [val_main_v42_apply, val_main_v40_apply, val_main_v38_apply, val_main_v36_apply, val_main_v37_apply, c41_at, c39_at, u1_at, u3_at]
  rfl

theorem r12_at : val_main_v47 (F := Ideal) x1 (ix1 n) = rot (unit (qrow x1 n)) 1 2 := by
  rw [val_main_v47_apply, val_main_v45_apply, val_main_v43_apply, val_main_v44_apply, c46_at, u2_at, u3_at, u1_at, u0_at]
  rfl

theorem r20_at : val_main_v52 (F := Ideal) x1 (ix1 n) = rot (unit (qrow x1 n)) 2 0 := by
  rw [val_main_v52_apply, val_main_v50_apply, val_main_v48_apply, val_main_v49_apply, c51_at, u1_at, u3_at, u2_at, u0_at]
  rfl

theorem r21_at : val_main_v57 (F := Ideal) x1 (ix1 n) = rot (unit (qrow x1 n)) 2 1 := by
  rw [val_main_v57_apply, val_main_v55_apply, val_main_v53_apply, val_main_v54_apply, c56_at, u2_at, u3_at, u1_at, u0_at]
  rfl

theorem r22_at : val_main_v64 (F := Ideal) x1 (ix1 n) = rot (unit (qrow x1 n)) 2 2 := by
  rw [val_main_v64_apply, val_main_v62_apply, val_main_v60_apply, val_main_v58_apply, val_main_v59_apply, c63_at, c61_at, u1_at, u2_at]
  rfl

end Cert.ReferenceIdeal.Cov

end
-- ==== Proof.RefValue.lean ====
/-
  The reference's result, at the extended reals, is the rows' covariances.

  The nine flat vectors of rotation entries are spread to columns, joined along the lanes into [4000000, 9] and
  reshaped to [4000000, 3, 3]: entry `(a, b)` of row `n`'s rotation matrix sits at `(n, a, b)`. The exponentials of
  the log-scales are spread over the rows of each matrix, so the product holds `R a j · e^(s j)` at `(n, a, j)`, and the
  contraction over the last axis of that array with itself is `Σ_j M a j · M b j` at `(n, a, b)`: the covariance.
-/
import proofs.«100101_j57191784513783_1_alg».proof.Proof.RefRotation
import Idealize.ShloMosaic.Lib.Pipeline.Value

set_option maxRecDepth 16384

noncomputable section

namespace Cert.ReferenceIdeal.Cov

open Cert.ReferenceIdeal Cert.ReferenceIdeal.Gen Cert.ReferenceIdeal.Read Idealize.ShloMosaic Idealize.ShloMosaic.TcCoe
  Idealize.ShloMosaic.ValueIdx Cert.Covariance

variable (x0 : (⟨S4000000x3, .f32⟩ : BufTy).Contents (Elt Ideal)) (x1 : (⟨S4000000x4, .f32⟩ : BufTy).Contents (Elt Ideal))
  (n : Fin 4000000)

/-! ## The nine entries as columns -/

theorem col00_at : val_main_v65 (F := Ideal) x1 (ix2 n (0 : Fin 1)) = rot (unit (qrow x1 n)) 0 0 := by
  rw [val_main_v65_apply]
  have e : idx_main_v65 (ix2 n (0 : Fin 1)) = ix1 n := funext fun d => by
    match d with
    | ⟨0, _⟩ => rfl
  rw [e, r00_at]
theorem col01_at : val_main_v66 (F := Ideal) x1 (ix2 n (0 : Fin 1)) = rot (unit (qrow x1 n)) 0 1 := by
  rw [val_main_v66_apply]
  have e : idx_main_v66 (ix2 n (0 : Fin 1)) = ix1 n := funext fun d => by
    match d with
    | ⟨0, _⟩ => rfl
  rw [e, r01_at]
theorem col02_at : val_main_v67 (F := Ideal) x1 (ix2 n (0 : Fin 1)) = rot (unit (qrow x1 n)) 0 2 := by
  rw [val_main_v67_apply]
  have e : idx_main_v67 (ix2 n (0 : Fin 1)) = ix1 n := funext fun d => by
    match d with
    | ⟨0, _⟩ => rfl
  rw [e, r02_at]
theorem col10_at : val_main_v68 (F := Ideal) x1 (ix2 n (0 : Fin 1)) = rot (unit (qrow x1 n)) 1 0 := by
  rw [val_main_v68_apply]
  have e : idx_main_v68 (ix2 n (0 : Fin 1)) = ix1 n := funext fun d => by
    match d with
    | ⟨0, _⟩ => rfl
  rw [e, r10_at]
theorem col11_at : val_main_v69 (F := Ideal) x1 (ix2 n (0 : Fin 1)) = rot (unit (qrow x1 n)) 1 1 := by
  rw [val_main_v69_apply]
  have e : idx_main_v69 (ix2 n (0 : Fin 1)) = ix1 n := funext fun d => by
    match d with
    | ⟨0, _⟩ => rfl
  rw [e, r11_at]
theorem col12_at : val_main_v70 (F := Ideal) x1 (ix2 n (0 : Fin 1)) = rot (unit (qrow x1 n)) 1 2 := by
  rw [val_main_v70_apply]
  have e : idx_main_v70 (ix2 n (0 : Fin 1)) = ix1 n := funext fun d => by
    match d with
    | ⟨0, _⟩ => rfl
  rw [e, r12_at]
theorem col20_at : val_main_v71 (F := Ideal) x1 (ix2 n (0 : Fin 1)) = rot (unit (qrow x1 n)) 2 0 := by
  rw [val_main_v71_apply]
  have e : idx_main_v71 (ix2 n (0 : Fin 1)) = ix1 n := funext fun d => by
    match d with
    | ⟨0, _⟩ => rfl
  rw [e, r20_at]
theorem col21_at : val_main_v72 (F := Ideal) x1 (ix2 n (0 : Fin 1)) = rot (unit (qrow x1 n)) 2 1 := by
  rw [val_main_v72_apply]
  have e : idx_main_v72 (ix2 n (0 : Fin 1)) = ix1 n := funext fun d => by
    match d with
    | ⟨0, _⟩ => rfl
  rw [e, r21_at]
theorem col22_at : val_main_v73 (F := Ideal) x1 (ix2 n (0 : Fin 1)) = rot (unit (qrow x1 n)) 2 2 := by
  rw [val_main_v73_apply]
  have e : idx_main_v73 (ix2 n (0 : Fin 1)) = ix1 n := funext fun d => by
    match d with
    | ⟨0, _⟩ => rfl
  rw [e, r22_at]

/-! ## Nine columns joined along the lanes -/

/-- Nine column vectors joined along the lanes, read at row `n` and lane `c`: column `c` at row `n`. -/
theorem join9_at (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) (c : Fin 9) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n c) = (![e0, e1, e2, e3, e4, e5, e6, e7, e8] c) (ix2 n 0) :=
  concatenate_ofFn_unit_apply (t := S4000000x9) (s₁ := S4000000x1) 1 ![e0, e1, e2, e3, e4, e5, e6, e7, e8] h rfl rfl (ix2 n c) c rfl (ix2 n 0)
    (fun b hb => by
      match b with
      | ⟨0, _⟩ => rfl
      | ⟨1, _⟩ => exact absurd rfl hb)

/-- The same, lane by lane. -/
theorem join9_0 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (0 : Fin 9)) = e0 (ix2 n 0) :=
  join9_at e0 e1 e2 e3 e4 e5 e6 e7 e8 h n 0
theorem join9_1 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (1 : Fin 9)) = e1 (ix2 n 0) :=
  join9_at e0 e1 e2 e3 e4 e5 e6 e7 e8 h n 1
theorem join9_2 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (2 : Fin 9)) = e2 (ix2 n 0) :=
  join9_at e0 e1 e2 e3 e4 e5 e6 e7 e8 h n 2
theorem join9_3 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (3 : Fin 9)) = e3 (ix2 n 0) :=
  join9_at e0 e1 e2 e3 e4 e5 e6 e7 e8 h n 3
theorem join9_4 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (4 : Fin 9)) = e4 (ix2 n 0) :=
  join9_at e0 e1 e2 e3 e4 e5 e6 e7 e8 h n 4
theorem join9_5 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (5 : Fin 9)) = e5 (ix2 n 0) :=
  join9_at e0 e1 e2 e3 e4 e5 e6 e7 e8 h n 5
theorem join9_6 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (6 : Fin 9)) = e6 (ix2 n 0) :=
  join9_at e0 e1 e2 e3 e4 e5 e6 e7 e8 h n 6
theorem join9_7 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (7 : Fin 9)) = e7 (ix2 n 0) :=
  join9_at e0 e1 e2 e3 e4 e5 e6 e7 e8 h n 7
theorem join9_8 (e0 e1 e2 e3 e4 e5 e6 e7 e8 : S4000000x1.Idx → EReal) (h : Shape.Concatenates [S4000000x1, S4000000x1, S4000000x1, S4000000x1, S4000000x1, S4000000x1, S4000000x1, S4000000x1, S4000000x1] S4000000x9 1) (n : Fin 4000000) :
    concatenate S4000000x9 1 [⟨S4000000x1, e0⟩, ⟨S4000000x1, e1⟩, ⟨S4000000x1, e2⟩, ⟨S4000000x1, e3⟩, ⟨S4000000x1, e4⟩, ⟨S4000000x1, e5⟩, ⟨S4000000x1, e6⟩, ⟨S4000000x1, e7⟩, ⟨S4000000x1, e8⟩] h (ix2 n (8 : Fin 9)) = e8 (ix2 n 0) :=
  join9_at e0 e1 e2 e3 e4 e5 e6 e7 e8 h n 8

/-- The joined array at row `n` and lane `3 a + b` is entry `(a, b)` of the row's rotation matrix. -/
theorem rflat_at (a b : Fin 3) (c : Fin 9) (hc : c.val = 3 * a.val + b.val) :
    val_main_v74 (F := Ideal) x1 (ix2 n c) = rot (unit (qrow x1 n)) a b := by
  unfold val_main_v74
  match a, b with
  | ⟨0, _⟩, ⟨0, _⟩ =>
    obtain rfl : c = (0 : Fin 9) := Fin.ext hc
    rw [join9_0]
    exact col00_at x1 n
  | ⟨0, _⟩, ⟨1, _⟩ =>
    obtain rfl : c = (1 : Fin 9) := Fin.ext hc
    rw [join9_1]
    exact col01_at x1 n
  | ⟨0, _⟩, ⟨2, _⟩ =>
    obtain rfl : c = (2 : Fin 9) := Fin.ext hc
    rw [join9_2]
    exact col02_at x1 n
  | ⟨1, _⟩, ⟨0, _⟩ =>
    obtain rfl : c = (3 : Fin 9) := Fin.ext hc
    rw [join9_3]
    exact col10_at x1 n
  | ⟨1, _⟩, ⟨1, _⟩ =>
    obtain rfl : c = (4 : Fin 9) := Fin.ext hc
    rw [join9_4]
    exact col11_at x1 n
  | ⟨1, _⟩, ⟨2, _⟩ =>
    obtain rfl : c = (5 : Fin 9) := Fin.ext hc
    rw [join9_5]
    exact col12_at x1 n
  | ⟨2, _⟩, ⟨0, _⟩ =>
    obtain rfl : c = (6 : Fin 9) := Fin.ext hc
    rw [join9_6]
    exact col20_at x1 n
  | ⟨2, _⟩, ⟨1, _⟩ =>
    obtain rfl : c = (7 : Fin 9) := Fin.ext hc
    rw [join9_7]
    exact col21_at x1 n
  | ⟨2, _⟩, ⟨2, _⟩ =>
    obtain rfl : c = (8 : Fin 9) := Fin.ext hc
    rw [join9_8]
    exact col22_at x1 n

/-- Reshaped: entry `(a, b)` of row `n`'s rotation matrix at `(n, a, b)`. -/
theorem rot_at (a b : Fin 3) : val_main_v75 (F := Ideal) x1 (ix3 n a b) = rot (unit (qrow x1 n)) a b := by
  have ha : a.val < 3 := a.isLt
  have hb : b.val < 3 := b.isLt
  have hn : n.val < 4000000 := n.isLt
  rw [val_main_v75_apply]
  have e : idx_main_v75 (ix3 n a b) = ix2 n (⟨3 * a.val + b.val, by omega⟩ : Fin 9) := funext fun d => Fin.ext (by
    match d with
    | ⟨0, _⟩ => show ((n.val * 3 + a.val) * 3 + b.val) / 9 = n.val; omega
    | ⟨1, _⟩ => show ((n.val * 3 + a.val) * 3 + b.val) % 9 = 3 * a.val + b.val; omega)
  rw [e]
  exact rflat_at x1 n a b _ rfl

/-! ## The scaled columns and the contraction -/

/-- The exponentials spread over the rows of each matrix: `e^(s j)` at `(n, a, j)`. -/
theorem exp_at (a j : Fin 3) : val_main_v77 (F := Ideal) x0 (ix3 n a j) = Ideal.exp (srow x0 n j) := by
  rw [val_main_v77_apply, val_main_v76_apply, val_main_v0_apply]
  have e : idx_main_v76 (idx_main_v77 (ix3 n a j)) = ix2 n j := funext fun d => by
    match d with
    | ⟨0, _⟩ => rfl
    | ⟨1, _⟩ => rfl
  rw [e]
  rfl

/-- The product: the rotation with its columns scaled. -/
theorem scaled_at (a j : Fin 3) : val_main_v78 (F := Ideal) x0 x1 (ix3 n a j) = scaled (srow x0 n) (qrow x1 n) a j := by
  rw [val_main_v78_apply, rot_at, exp_at]
  rfl

/-- The reference's result is the array of the rows' covariances. -/
theorem result_eq : val_main_v79 (F := Ideal) x0 x1 = G x0 x1 := by
  funext i
  obtain ⟨n, a, b, rfl⟩ : ∃ (n : Fin 4000000) (a b : Fin 3), i = ix3 n a b := ⟨i 0, i 1, i 2, eq_ix3 i⟩
  rw [val_main_v79_apply, Fin.sum_univ_three]
  have el : ∀ k : Fin 3, lidx_main_v79 (ix3 n a b) k = ix3 n a k := fun k => funext fun d => by
    match d with
    | ⟨0, _⟩ => rfl
    | ⟨1, _⟩ => rfl
    | ⟨2, _⟩ => rfl
  have er : ∀ k : Fin 3, ridx_main_v79 (ix3 n a b) k = ix3 n b k := fun k => funext fun d => by
    match d with
    | ⟨0, _⟩ => rfl
    | ⟨1, _⟩ => rfl
    | ⟨2, _⟩ => rfl
  rw [el 0, el 1, el 2, er 0, er 1, er 2]
  rw [scaled_at x0 x1 n a 0, scaled_at x0 x1 n a 1, scaled_at x0 x1 n a 2, scaled_at x0 x1 n b 0, scaled_at x0 x1 n b 1,
    scaled_at x0 x1 n b 2]
  rfl

end Cert.ReferenceIdeal.Cov

end
-- ==== Proof.lean ====
/-
  The covariance of scaled, rotated Gaussians: a gridded kernel against its array reference, over the extended reals.

  Each of 4,000,000 rows holds three log-scales `s` and a quaternion `q`. Both programs divide `q` by its length
  clamped from below, form the rotation matrix `R` of the unit quaternion, scale its columns, `M a j = R a j · e^(s j)`,
  and return `M Mᵀ`, a 3 × 3 matrix per row. The kernel does this on blocks of 2000 rows, column vector by column
  vector, writes the nine entries of each row side by side and reshapes at the end; it computes the six entries on and
  above the diagonal and stores each off-diagonal one twice. The reference works on whole arrays and contracts `M` with
  itself over the column axis. Read at the extended reals both results are, entry by entry, the function
  `Cert.Covariance.G` of the argument arrays: by unfolding, except that the reference's length sums the squares from
  zero, and that below the diagonal the reference has `M b j · M a j` where the kernel has `M a j · M b j`. Neither
  step needs the inputs to be finite, so the precondition is not used.

  The three frames: the two kernel programs' are the generated frame theorems; the reference's is its run with the
  result dropped. The idealization rewrote nothing, so the kernel's idealization claim has no conjunct.
-/
import proofs.«100101_j57191784513783_1_alg».proof.Defs
import proofs.«100101_j57191784513783_1_alg».proof.Proof.Gen.Kernel
import proofs.«100101_j57191784513783_1_alg».proof.Proof.Gen.Kernel.Skeleton
import proofs.«100101_j57191784513783_1_alg».proof.Proof.Gen.Kernel.Launch
import proofs.«100101_j57191784513783_1_alg».proof.Proof.Gen.Kernel.Points
import proofs.«100101_j57191784513783_1_alg».proof.Proof.Gen.Kernel.Frame
import proofs.«100101_j57191784513783_1_alg».proof.Proof.Gen.KernelIdeal
import proofs.«100101_j57191784513783_1_alg».proof.Proof.Gen.KernelIdeal.Skeleton
import proofs.«100101_j57191784513783_1_alg».proof.Proof.Gen.KernelIdeal.Launch
import proofs.«100101_j57191784513783_1_alg».proof.Proof.Gen.KernelIdeal.Points
import proofs.«100101_j57191784513783_1_alg».proof.Proof.Gen.KernelIdeal.Frame
import proofs.«100101_j57191784513783_1_alg».proof.Proof.Gen.ReferenceIdeal
import proofs.«100101_j57191784513783_1_alg».proof.Proof.Gen.Pre_finite_inputs
import proofs.«100101_j57191784513783_1_alg».proof.Proof.Gen.ReferenceIdeal.Run
import proofs.«100101_j57191784513783_1_alg».proof.Proof.Gen.ReferenceIdeal.Read
import proofs.«100101_j57191784513783_1_alg».proof.Proof.KernelValue
import proofs.«100101_j57191784513783_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two argument arrays both programs end with the rows' covariances: the kernel's
    result array by the blocks it wrote and the reshape, the reference's by its operations read index by index. -/
theorem algebraic : Cert.algebraic_KernelIdeal_ReferenceIdeal := by
  intro m ρ m' ρ' _ hagree
  refine ⟨fun c => Cert.Covariance.G (Cert.KernelIdeal.Cov.scaleArr m c) (Cert.KernelIdeal.Cov.quatArr m c),
    Cert.KernelIdeal.Cov.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.ReferenceIdeal.Cov.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
